-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S30000x1024 : Shape := ⟨2, ![30000, 1024]⟩
abbrev S2x480000 : Shape := ⟨2, ![2, 480000]⟩
abbrev S480000 : Shape := ⟨1, ![480000]⟩
abbrev S512x1024 : Shape := ⟨2, ![512, 1024]⟩
abbrev S_ : Shape := ⟨0, ![]⟩
abbrev S1x480000 : Shape := ⟨2, ![1, 480000]⟩

class Facts : Prop where
  bcast_S_S30000x1024 : S_.BroadcastsInDim S30000x1024 (![] : Fin 0 → Fin S30000x1024.rank)
  reducesTo_S30000x1024_S_d0_1 : S30000x1024.ReducesTo [0, 1] S_
  h_S_ : 0 < S_.numel
  bcast_S_S480000 : S_.BroadcastsInDim S480000 (![] : Fin 0 → Fin S480000.rank)
  reducesTo_S480000_S_d0 : S480000.ReducesTo [0] S_
  bcast_S_S512x1024 : S_.BroadcastsInDim S512x1024 (![] : Fin 0 → Fin S512x1024.rank)
  reducesTo_S512x1024_S_d0_1 : S512x1024.ReducesTo [0, 1] S_
  slices_S2x480000_S1x480000_1_0 : S2x480000.Slices ![1, 0] S1x480000
  shapeCasts_S1x480000_S480000 : S1x480000.ShapeCasts S480000

variable [Facts]

def fn_part1 {F : FTy → Type} [FloatOps F] (main_arg1 : IVec S2x480000 32) (main_v13 : IVec S_ 1) (main_v15 : IVec S480000 32) (main_v16 : IVec S480000 32) : IVec S_ 1 :=
  let main_v17 : IVec S480000 1 := cmpi .sge main_v15 main_v16
  let main_v18 : IVec S1x480000 32 := (extractStridedSlice S1x480000 ![1, 0] · slices_S2x480000_S1x480000_1_0) main_arg1
  let main_v19 : IVec S480000 32 := shapeCast S480000 main_v18 shapeCasts_S1x480000_S480000
  let main_c_5 : IVec S_ 32 := constantI S_ 32 30000#32
  let main_v20 : IVec S480000 32 := broadcastInDim S480000 ![] bcast_S_S480000 main_c_5
  let main_v21 : IVec S480000 1 := cmpi .slt main_v19 main_v20
  let main_v22 : IVec S480000 1 := andi main_v17 main_v21
  let main_c_6 : IVec S_ 1 := constantI S_ 1 1#1
  let main_v23 : IVec S_ 1 := (fun x v => Host.reduce IntOp.andi x v reducesTo_S480000_S_d0 h_S_) main_v22 main_c_6
  let main_v24 : IVec S_ 1 := andi main_v13 main_v23
  main_v24

def fn {F : FTy → Type} [FloatOps F] (main_arg0 : FVec F S30000x1024 .f32) (main_arg1 : IVec S2x480000 32) (main_arg2 : FVec F S480000 .f32) (main_arg3 : FVec F S512x1024 .f32) : IVec S_ 1 :=
  let main_v0 : FVec F S30000x1024 .f32 := Host.absf main_arg0
  let main_cst : FVec F S_ .f32 := constant S_ .f32 0x7F800000#32
  let main_v1 : FVec F S30000x1024 .f32 := broadcastInDim S30000x1024 ![] bcast_S_S30000x1024 main_cst
  let main_v2 : IVec S30000x1024 1 := cmpf .olt main_v0 main_v1
  let main_c : IVec S_ 1 := constantI S_ 1 1#1
  let main_v3 : IVec S_ 1 := (fun x v => Host.reduce IntOp.andi x v reducesTo_S30000x1024_S_d0_1 h_S_) main_v2 main_c
  let main_v4 : FVec F S480000 .f32 := Host.absf main_arg2
  let main_cst_0 : FVec F S_ .f32 := constant S_ .f32 0x7F800000#32
  let main_v5 : FVec F S480000 .f32 := broadcastInDim S480000 ![] bcast_S_S480000 main_cst_0
  let main_v6 : IVec S480000 1 := cmpf .olt main_v4 main_v5
  let main_c_1 : IVec S_ 1 := constantI S_ 1 1#1
  let main_v7 : IVec S_ 1 := (fun x v => Host.reduce IntOp.andi x v reducesTo_S480000_S_d0 h_S_) main_v6 main_c_1
  let main_v8 : IVec S_ 1 := andi main_v3 main_v7
  let main_v9 : FVec F S512x1024 .f32 := Host.absf main_arg3
  let main_cst_2 : FVec F S_ .f32 := constant S_ .f32 0x7F800000#32
  let main_v10 : FVec F S512x1024 .f32 := broadcastInDim S512x1024 ![] bcast_S_S512x1024 main_cst_2
  let main_v11 : IVec S512x1024 1 := cmpf .olt main_v9 main_v10
  let main_c_3 : IVec S_ 1 := constantI S_ 1 1#1
  let main_v12 : IVec S_ 1 := (fun x v => Host.reduce IntOp.andi x v reducesTo_S512x1024_S_d0_1 h_S_) main_v11 main_c_3
  let main_v13 : IVec S_ 1 := andi main_v8 main_v12
  let main_v14 : IVec S1x480000 32 := (extractStridedSlice S1x480000 ![1, 0] · slices_S2x480000_S1x480000_1_0) main_arg1
  let main_v15 : IVec S480000 32 := shapeCast S480000 main_v14 shapeCasts_S1x480000_S480000
  let main_c_4 : IVec S_ 32 := constantI S_ 32 4294937296#32
  let main_v16 : IVec S480000 32 := broadcastInDim S480000 ![] bcast_S_S480000 main_c_4
  fn_part1 (F := F) main_arg1 main_v13 main_v15 main_v16
-- ==== Kernel.lean ====
abbrev S30000x1024 : Shape := ⟨2, ![30000, 1024]⟩
abbrev S2x480000 : Shape := ⟨2, ![2, 480000]⟩
abbrev S480000 : Shape := ⟨1, ![480000]⟩
abbrev S512x1024 : Shape := ⟨2, ![512, 1024]⟩
abbrev S30000x512 : Shape := ⟨2, ![30000, 512]⟩
abbrev S3000x1024 : Shape := ⟨2, ![3000, 1024]⟩
abbrev S3000x512 : Shape := ⟨2, ![3000, 512]⟩
abbrev S1024x512 : Shape := ⟨2, ![1024, 512]⟩
abbrev S1x480000 : Shape := ⟨2, ![1, 480000]⟩
abbrev S_ : Shape := ⟨0, ![]⟩
abbrev S480000x1 : Shape := ⟨2, ![480000, 1]⟩
abbrev S1 : Shape := ⟨1, ![1]⟩
abbrev S1x1 : Shape := ⟨2, ![1, 1]⟩
abbrev S480000x512 : Shape := ⟨2, ![480000, 512]⟩

abbrev nBuf : Space → Nat
  | .hbm => 39
  | .vmem => 5
  | .smem => 0
  | _ => 0

abbrev bufTy : (tb : Table) → Fin (tcTables nBuf tb) → BufTy
  | .hbm, ⟨0, _⟩ => ⟨S30000x1024, .f32⟩
  | .hbm, ⟨1, _⟩ => ⟨S2x480000, .i32⟩
  | .hbm, ⟨2, _⟩ => ⟨S480000, .f32⟩
  | .hbm, ⟨3, _⟩ => ⟨S512x1024, .f32⟩
  | .hbm, ⟨4, _⟩ => ⟨S30000x512, .f32⟩
  | .hbm, ⟨5, _⟩ => ⟨S1x480000, .i32⟩
  | .hbm, ⟨6, _⟩ => ⟨S480000, .i32⟩
  | .hbm, ⟨7, _⟩ => ⟨S1x480000, .i32⟩
  | .hbm, ⟨8, _⟩ => ⟨S480000, .i32⟩
  | .hbm, ⟨9, _⟩ => ⟨S_, .i32⟩
  | .hbm, ⟨10, _⟩ => ⟨S480000, .i32⟩
  | .hbm, ⟨11, _⟩ => ⟨S480000, .i1⟩
  | .hbm, ⟨12, _⟩ => ⟨S_, .i32⟩
  | .hbm, ⟨13, _⟩ => ⟨S480000, .i32⟩
  | .hbm, ⟨14, _⟩ => ⟨S480000, .i32⟩
  | .hbm, ⟨15, _⟩ => ⟨S480000, .i32⟩
  | .hbm, ⟨16, _⟩ => ⟨S480000x1, .i32⟩
  | .hbm, ⟨17, _⟩ => ⟨S1, .i32⟩
  | .hbm, ⟨18, _⟩ => ⟨S_, .i32⟩
  | .hbm, ⟨19, _⟩ => ⟨S480000x1, .i32⟩
  | .hbm, ⟨20, _⟩ => ⟨S480000x1, .i1⟩
  | .hbm, ⟨21, _⟩ => ⟨S1x1, .i32⟩
  | .hbm, ⟨22, _⟩ => ⟨S480000x1, .i32⟩
  | .hbm, ⟨23, _⟩ => ⟨S480000x1, .i1⟩
  | .hbm, ⟨24, _⟩ => ⟨S480000x1, .i1⟩
  | .hbm, ⟨25, _⟩ => ⟨S_, .i1⟩
  | .hbm, ⟨26, _⟩ => ⟨S480000, .i1⟩
  | .hbm, ⟨27, _⟩ => ⟨S480000x512, .f32⟩
  | .hbm, ⟨28, _⟩ => ⟨S480000x512, .i1⟩
  | .hbm, ⟨29, _⟩ => ⟨S_, .f32⟩
  | .hbm, ⟨30, _⟩ => ⟨S480000x512, .f32⟩
  | .hbm, ⟨31, _⟩ => ⟨S480000x512, .f32⟩
  | .hbm, ⟨32, _⟩ => ⟨S480000x1, .f32⟩
  | .hbm, ⟨33, _⟩ => ⟨S480000x512, .f32⟩
  | .hbm, ⟨34, _⟩ => ⟨S480000x512, .f32⟩
  | .hbm, ⟨35, _⟩ => ⟨S_, .f32⟩
  | .hbm, ⟨36, _⟩ => ⟨S30000x512, .f32⟩
  | .hbm, ⟨37, _⟩ => ⟨S480000x1, .i32⟩
  | .hbm, ⟨38, _⟩ => ⟨S30000x512, .f32⟩
  | .local _ .vmem, ⟨0, _⟩ => ⟨S3000x1024, .f32⟩
  | .local _ .vmem, ⟨1, _⟩ => ⟨S3000x1024, .f32⟩
  | .local _ .vmem, ⟨2, _⟩ => ⟨S512x1024, .f32⟩
  | .local _ .vmem, ⟨3, _⟩ => ⟨S3000x512, .f32⟩
  | .local _ .vmem, ⟨4, _⟩ => ⟨S3000x512, .f32⟩
  | _, _ => ⟨S30000x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_cst : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3000x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S3000x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S3000x1024_S3000x1024_0_0 : ∀ a, (![0, 0] : Fin 2 → Nat) a + S3000x1024.size a ≤ S3000x1024.size a
  h_S3000x1024 : 0 < S3000x1024.numel
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  transposes_S512x1024_p1_0_S1024x512 : S512x1024.Transposes [1, 0] S1024x512
  inb_S3000x512_S3000x512_0_0 : ∀ a, (![0, 0] : Fin 2 → Nat) a + S3000x512.size a ≤ S3000x512.size a
  h_S3000x512 : 0 < S3000x512.numel
  slices_S2x480000_S1x480000_0_0 : S2x480000.Slices ![0, 0] S1x480000
  shapeCasts_S1x480000_S480000 : S1x480000.ShapeCasts S480000
  slices_S2x480000_S1x480000_1_0 : S2x480000.Slices ![1, 0] S1x480000
  bcast_S_S480000 : S_.BroadcastsInDim S480000 (![] : Fin 0 → Fin S480000.rank)
  bcast_S480000_S480000x1_0 : S480000.BroadcastsInDim S480000x1 (![0] : Fin 1 → Fin S480000x1.rank)
  bcast_S_S480000x1 : S_.BroadcastsInDim S480000x1 (![] : Fin 0 → Fin S480000x1.rank)
  bcast_S1_S1x1_1 : S1.BroadcastsInDim S1x1 (![1] : Fin 1 → Fin S1x1.rank)
  bcast_S1x1_S480000x1_0_1 : S1x1.BroadcastsInDim S480000x1 (![0, 1] : Fin 2 → Fin S480000x1.rank)
  reducesTo_S480000x1_S480000_d1 : S480000x1.ReducesTo [1] S480000
  h_S_ : 0 < S_.numel
  bcast_S480000_S480000x512_0 : S480000.BroadcastsInDim S480000x512 (![0] : Fin 1 → Fin S480000x512.rank)
  bcast_S_S480000x512 : S_.BroadcastsInDim S480000x512 (![] : Fin 0 → Fin S480000x512.rank)
  bcast_S480000x1_S480000x512_0_1 : S480000x1.BroadcastsInDim S480000x512 (![0, 1] : Fin 2 → Fin S480000x512.rank)
  bcast_S_S30000x512 : S_.BroadcastsInDim S30000x512 (![] : Fin 0 → Fin S30000x512.rank)
  dot_S3000x1024_S1024x512_S3000x512_1_0_0_1_n_n_wf : DotDims.WF S3000x1024 S1024x512 S3000x512 [1] [0] [0] [1] [] []
  gather_S30000x512_S480000x1_S480000x512_1_0_n_n_0_1_1512_wf : GatherDims.WF S30000x512 S480000x1 S480000x512 [1] [0] [] [0] [] 1 ![1, 512]
  scatter_S30000x512_S480000x1_S480000x512_1_0_0_1_wf : ScatterDims.WF S30000x512 S480000x1 S480000x512 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3000x1024.size a ≤ S30000x1024.size a
  hwx0_0 : ∀ i : grid0.Coords, EltTy.bits .f32 = 32 ∨ (Rect.block (s := S30000x1024) S3000x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x1024.size a
  hwx0_1 : ∀ i : grid0.Coords, EltTy.bits .f32 = 32 ∨ (Rect.block (s := S512x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3000x512.size a ≤ S30000x512.size a
  hwx0_2 : ∀ i : grid0.Coords, EltTy.bits .f32 = 32 ∨ (Rect.block (s := S30000x512) S3000x512.size (cc0_transform_2 i) (hinb0_2 i)).WholeWords (EltTy.packing .f32)

variable [Facts₀]

def dot_S3000x1024_S1024x512_S3000x512_1_0_0_1_n_n : DotDims S3000x1024 S1024x512 S3000x512 where
  lhsContracting := [1]
  rhsContracting := [0]
  lhsNonContracting := [0]
  rhsNonContracting := [1]
  lhsBatch := []
  rhsBatch := []
  wf := dot_S3000x1024_S1024x512_S3000x512_1_0_0_1_n_n_wf
def gather_S30000x512_S480000x1_S480000x512_1_0_n_n_0_1_1512 : GatherDims S30000x512 S480000x1 S480000x512 where
  offsetDims := [1]
  collapsedSliceDims := [0]
  operandBatchingDims := []
  startIndicesBatchingDims := []
  startIndexMap := [0]
  indexVectorDim := 1
  sliceSizes := ![1, 512]
  wf := gather_S30000x512_S480000x1_S480000x512_1_0_n_n_0_1_1512_wf
def scatter_S30000x512_S480000x1_S480000x512_1_0_0_1 : ScatterDims S30000x512 S480000x1 S480000x512 where
  updateWindowDims := [1]
  insertedWindowDims := [0]
  scatterDimsToOperandDims := [0]
  indexVectorDim := 1
  wf := scatter_S30000x512_S480000x1_S480000x512_1_0_0_1_wf

abbrev win0_0 : Pipeline.Window sig grid0 :=
  Pipeline.Window.ofSpec (Memref.whole main_arg0) S3000x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S3000x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S30000x1024 : Shape := ⟨2, ![30000, 1024]⟩
abbrev S2x480000 : Shape := ⟨2, ![2, 480000]⟩
abbrev S480000 : Shape := ⟨1, ![480000]⟩
abbrev S512x1024 : Shape := ⟨2, ![512, 1024]⟩
abbrev S30000x512 : Shape := ⟨2, ![30000, 512]⟩
abbrev S1x480000 : Shape := ⟨2, ![1, 480000]⟩
abbrev S480000x1 : Shape := ⟨2, ![480000, 1]⟩
abbrev S_ : Shape := ⟨0, ![]⟩
abbrev S480000x512 : Shape := ⟨2, ![480000, 512]⟩

abbrev nBuf : Space → Nat
  | .hbm => 25
  | .vmem => 0
  | .smem => 0
  | _ => 0

abbrev bufTy : (tb : Table) → Fin (tcTables nBuf tb) → BufTy
  | .hbm, ⟨0, _⟩ => ⟨S30000x1024, .f32⟩
  | .hbm, ⟨1, _⟩ => ⟨S2x480000, .i32⟩
  | .hbm, ⟨2, _⟩ => ⟨S480000, .f32⟩
  | .hbm, ⟨3, _⟩ => ⟨S512x1024, .f32⟩
  | .hbm, ⟨4, _⟩ => ⟨S30000x512, .f32⟩
  | .hbm, ⟨5, _⟩ => ⟨S1x480000, .i32⟩
  | .hbm, ⟨6, _⟩ => ⟨S480000, .i32⟩
  | .hbm, ⟨7, _⟩ => ⟨S1x480000, .i32⟩
  | .hbm, ⟨8, _⟩ => ⟨S480000, .i32⟩
  | .hbm, ⟨9, _⟩ => ⟨S480000x1, .f32⟩
  | .hbm, ⟨10, _⟩ => ⟨S_, .i32⟩
  | .hbm, ⟨11, _⟩ => ⟨S480000, .i32⟩
  | .hbm, ⟨12, _⟩ => ⟨S480000, .i1⟩
  | .hbm, ⟨13, _⟩ => ⟨S_, .i32⟩
  | .hbm, ⟨14, _⟩ => ⟨S480000, .i32⟩
  | .hbm, ⟨15, _⟩ => ⟨S480000, .i32⟩
  | .hbm, ⟨16, _⟩ => ⟨S480000, .i32⟩
  | .hbm, ⟨17, _⟩ => ⟨S480000x1, .i32⟩
  | .hbm, ⟨18, _⟩ => ⟨S480000x512, .f32⟩
  | .hbm, ⟨19, _⟩ => ⟨S480000x512, .f32⟩
  | .hbm, ⟨20, _⟩ => ⟨S480000x512, .f32⟩
  | .hbm, ⟨21, _⟩ => ⟨S_, .f32⟩
  | .hbm, ⟨22, _⟩ => ⟨S30000x512, .f32⟩
  | .hbm, ⟨23, _⟩ => ⟨S480000x1, .i32⟩
  | .hbm, ⟨24, _⟩ => ⟨S30000x512, .f32⟩
  | _, _ => ⟨S30000x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  slices_S2x480000_S1x480000_0_0 : S2x480000.Slices ![0, 0] S1x480000
  shapeCasts_S1x480000_S480000 : S1x480000.ShapeCasts S480000
  slices_S2x480000_S1x480000_1_0 : S2x480000.Slices ![1, 0] S1x480000
  bcast_S480000_S480000x1_0 : S480000.BroadcastsInDim S480000x1 (![0] : Fin 1 → Fin S480000x1.rank)
  bcast_S_S480000 : S_.BroadcastsInDim S480000 (![] : Fin 0 → Fin S480000.rank)
  bcast_S480000x1_S480000x512_0_1 : S480000x1.BroadcastsInDim S480000x512 (![0, 1] : Fin 2 → Fin S480000x512.rank)
  bcast_S_S30000x512 : S_.BroadcastsInDim S30000x512 (![] : Fin 0 → Fin S30000x512.rank)
  dot_S30000x1024_S512x1024_S30000x512_1_1_0_0_n_n_wf : DotDims.WF S30000x1024 S512x1024 S30000x512 [1] [1] [0] [0] [] []
  gather_S30000x512_S480000x1_S480000x512_1_0_n_n_0_1_1512_wf : GatherDims.WF S30000x512 S480000x1 S480000x512 [1] [0] [] [0] [] 1 ![1, 512]
  scatter_S30000x512_S480000x1_S480000x512_1_0_0_1_wf : ScatterDims.WF S30000x512 S480000x1 S480000x512 [1] [0] [0] 1

variable [Facts₀]

def dot_S30000x1024_S512x1024_S30000x512_1_1_0_0_n_n : DotDims S30000x1024 S512x1024 S30000x512 where
  lhsContracting := [1]
  rhsContracting := [1]
  lhsNonContracting := [0]
  rhsNonContracting := [0]
  lhsBatch := []
  rhsBatch := []
  wf := dot_S30000x1024_S512x1024_S30000x512_1_1_0_0_n_n_wf
def gather_S30000x512_S480000x1_S480000x512_1_0_n_n_0_1_1512 : GatherDims S30000x512 S480000x1 S480000x512 where
  offsetDims := [1]
  collapsedSliceDims := [0]
  operandBatchingDims := []
  startIndicesBatchingDims := []
  startIndexMap := [0]
  indexVectorDim := 1
  sliceSizes := ![1, 512]
  wf := gather_S30000x512_S480000x1_S480000x512_1_0_n_n_0_1_1512_wf
def scatter_S30000x512_S480000x1_S480000x512_1_0_0_1 : ScatterDims S30000x512 S480000x1 S480000x512 where
  updateWindowDims := [1]
  insertedWindowDims := [0]
  scatterDimsToOperandDims := [0]
  indexVectorDim := 1
  wf := scatter_S30000x512_S480000x1_S480000x512_1_0_0_1_wf

class Facts : Prop extends Facts₀ where

variable [Facts]
-- ==== Proof.BlockProduct.lean ====
/-
  One block of the linear projection, entry by entry.

  The kernel body loads a block `xb` of 3000 rows of `x` (1024 features each) and the whole weight
  matrix `w` (512 output features by 1024 input features), transposes `w`, and multiplies into a zero
  accumulator.  Over the extended reals the change of float format before the product is the identity,
  so entry (p, q) of the stored block is  Σ_k xb[p, k] · w[q, k] : row p of the block against row q of
  the weights.
-/
import proofs.«402446_j48189533061406_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Projection

open Cert.KernelIdeal Cert.KernelIdeal.Gen Idealize.ShloMosaic Idealize.ShloMosaic.ValueIdx

/-! ## Which operand entries the block product pairs -/

/-- The left operand's row is the output's row. -/
theorem lhs_blockDot_0 (i : S3000x512.Idx) (q : dot_S3000x1024_S1024x512_S3000x512_1_0_0_1_n_n.contr.Idx) :
    (dot_S3000x1024_S1024x512_S3000x512_1_0_0_1_n_n.lhsIdx i q 0).val = (i 0).val := by
  unfold DotDims.lhsIdx
  rw [dif_neg (show ¬(0 : Fin S3000x1024.rank) ∈ dot_S3000x1024_S1024x512_S3000x512_1_0_0_1_n_n.lhsBatch by decide), dif_pos (show (0 : Fin S3000x1024.rank) ∈ dot_S3000x1024_S1024x512_S3000x512_1_0_0_1_n_n.lhsNonContracting by decide)]
  rfl
/-- The left operand's column is the summation index. -/
theorem lhs_blockDot_1 (i : S3000x512.Idx) (q : dot_S3000x1024_S1024x512_S3000x512_1_0_0_1_n_n.contr.Idx) :
    (dot_S3000x1024_S1024x512_S3000x512_1_0_0_1_n_n.lhsIdx i q 1).val = (q ⟨0, by decide⟩).val :=
  dot_S3000x1024_S1024x512_S3000x512_1_0_0_1_n_n.lhsIdx_val_of_single rfl i q
/-- The (transposed) right operand's row is the summation index. -/
theorem rhs_blockDot_0 (i : S3000x512.Idx) (q : dot_S3000x1024_S1024x512_S3000x512_1_0_0_1_n_n.contr.Idx) :
    (dot_S3000x1024_S1024x512_S3000x512_1_0_0_1_n_n.rhsIdx i q 0).val = (q ⟨0, by decide⟩).val :=
  dot_S3000x1024_S1024x512_S3000x512_1_0_0_1_n_n.rhsIdx_val_of_single rfl i q
/-- The (transposed) right operand's column is the output's column. -/
theorem rhs_blockDot_1 (i : S3000x512.Idx) (q : dot_S3000x1024_S1024x512_S3000x512_1_0_0_1_n_n.contr.Idx) :
    (dot_S3000x1024_S1024x512_S3000x512_1_0_0_1_n_n.rhsIdx i q 1).val = (i 1).val := by
  unfold DotDims.rhsIdx
  rw [dif_neg (show ¬(1 : Fin S1024x512.rank) ∈ dot_S3000x1024_S1024x512_S3000x512_1_0_0_1_n_n.rhsBatch by decide), dif_pos (show (1 : Fin S1024x512.rank) ∈ dot_S3000x1024_S1024x512_S3000x512_1_0_0_1_n_n.rhsNonContracting by decide)]
  rfl

/-! ## The stored block at an entry -/

/-- Entry (p, q) of what the body stores: row p of the loaded block of `x` against row q of the weights. -/
theorem pay_apply (xb : Vec Ideal S3000x1024 .f32) (w : Vec Ideal S512x1024 .f32) (p : Fin 3000) (q : Fin 512) :
    k0_pay1 (F := Ideal) xb w (ix2 p q) = ∑ k : Fin 1024, xb (ix2 p k) * w (ix2 q k) := by
  unfold k0_pay1
  refine (Ideal.matmul_constant_zero_apply dot_S3000x1024_S1024x512_S3000x512_1_0_0_1_n_n none _ _ (ix2 p q)).trans ?_
  rw [← Equiv.sum_comp (contrEquiv1 dot_S3000x1024_S1024x512_S3000x512_1_0_0_1_n_n 1024 rfl rfl).symm]
  refine Finset.sum_congr rfl fun k _ => ?_
  have hk := contrEquiv1_symm_val dot_S3000x1024_S1024x512_S3000x512_1_0_0_1_n_n 1024 rfl rfl k
  have el : dot_S3000x1024_S1024x512_S3000x512_1_0_0_1_n_n.lhsIdx (ix2 p q) ((contrEquiv1 dot_S3000x1024_S1024x512_S3000x512_1_0_0_1_n_n 1024 rfl rfl).symm k) = ix2 p k := funext fun a => Fin.ext (by
    match a with
    | ⟨0, _⟩ => exact lhs_blockDot_0 _ _
    | ⟨1, _⟩ => exact (lhs_blockDot_1 _ _).trans hk)
  have er : dot_S3000x1024_S1024x512_S3000x512_1_0_0_1_n_n.rhsIdx (ix2 p q) ((contrEquiv1 dot_S3000x1024_S1024x512_S3000x512_1_0_0_1_n_n 1024 rfl rfl).symm k) = ix2 k q := funext fun a => Fin.ext (by
    match a with
    | ⟨0, _⟩ => exact (rhs_blockDot_0 _ _).trans hk
    | ⟨1, _⟩ => exact rhs_blockDot_1 _ _)
  rw [el, er]
  refine congrArg (xb (ix2 p k) * ·) ?_
  exact transpose_apply [1, 0] w transposes_S512x1024_p1_0_S1024x512 (ix2 k q) (ix2 q k) (fun b => match b with
    | ⟨0, _⟩ => rfl
    | ⟨1, _⟩ => rfl)

end Cert.KernelIdeal.Projection

end
-- ==== Proof.Projected.lean ====
/-
  The projected features after the region:  h = x · Wᵀ  as ONE array.

  Grid point t handles rows 3000·t … 3000·t + 2999 of `x`: it reads that row block and the whole weight
  matrix, and writes back the same row block of the output.  Entry (r, o) of the written block is the
  block's row against row o of the weights (the block product), and the block's row p is row 3000·t + p
  of `x`; so every written block is the restriction of the single array
      h[n, o] = Σ_k x[n, k] · W[o, k].
  The ten row blocks tile the 30000 rows (row n lies in block n / 3000), hence the output array ends as h.
-/
import proofs.«402446_j48189533061406_2_alg».proof.Proof.Gen.KernelIdeal.Frame
import proofs.«402446_j48189533061406_2_alg».proof.Proof.BlockProduct
import Idealize.ShloMosaic.Lib.Pipeline.Value

set_option maxRecDepth 16384

noncomputable section

namespace Cert.KernelIdeal.Projection

open Cert.KernelIdeal Cert.KernelIdeal.Gen Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ)

/-- The linear projection of every node: h[n, o] = Σ_k x[n, k] · W[o, k]. -/
def proj (x : S30000x1024.Idx → EReal) (w : S512x1024.Idx → EReal) : S30000x512.Idx → EReal :=
  fun i => ∑ k : Fin 1024, x (ix2 (i 0) k) * w (ix2 (i 1) k)

theorem origin_zero : (![0, 0] : Fin 2 → Nat) = fun _ => 0 := funext fun a => by fin_cases a <;> rfl

/-- The block indices over the grid: the `x` window and the output window move together down the rows, point
    t at row block t; the weight window stays at the origin; no window moves along the columns. -/
theorem block_indices : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 9 :=
  (by decide +kernel : ∀ t : Fin grid0.N, _)

/-- Every row block is some point's. -/
theorem block_onto : ∀ q0 : Fin 10, ∃ t : Fin cfg0.N, win0_2.index t = ![q0.val, 0] :=
  (by decide +kernel : ∀ q0 : Fin 10, ∃ t : Fin grid0.N, win0_2.index t = ![q0.val, 0])

/-- What point `t` writes back is its row block of `proj x W`. -/
theorem flushed_eq (c : Dev nD) (t : Fin cfg0.N) :
    (dats m 0 c).flushed 2 t = ((cfg0.win 2).blk t).view.read (Elt Ideal) (proj (V m c main_arg0) (V m c main_arg3)) := by
  show (cfg0.win 2).cut (grid0.coords t) ((dats m 0 c).after 2 t) = _
  rw [after0_2]
  unfold out0_2
  rw [View.canon_unit_zero origin_zero]
  simp only [View.ld_unit_zero (S := S3000x1024) origin_zero, View.ld_unit_zero (S := S512x1024) origin_zero]
  obtain ⟨e0, e1, e2, e3, e4, e5⟩ := block_indices t
  funext j
  obtain ⟨p, q, rfl⟩ : ∃ (p : Fin 3000) (q : Fin 512), j = ix2 p q := ⟨j 0, j 1, eq_ix2 j⟩
  show k0_pay1 (F := Ideal) (iblk m c 0 t) (iblk m c 1 t) (ix2 p q) = proj (V m c main_arg0) (V m c main_arg3) (((cfg0.win 2).blk t).view.emb (ix2 p q))
  refine (pay_apply (iblk m c 0 t) (iblk m c 1 t) p q).trans ?_
  unfold proj
  refine Finset.sum_congr rfl fun k _ => ?_
  have hx : iblk m c 0 t (ix2 p k) = V m c main_arg0 (ix2 ((((cfg0.win 2).blk t).view.emb (ix2 p q)) 0) k) := by
    show V m c main_arg0 (((cfg0.win 0).blk t).view.emb (ix2 p k)) = _
    refine congrArg (V m c main_arg0) (funext fun a => Fin.ext ?_)
    match a with
    | ⟨0, _⟩ => show win0_0.index t (0 : Fin 2) * 3000 + 1 * p.val = win0_2.index t (0 : Fin 2) * 3000 + 1 * p.val; omega
    | ⟨1, _⟩ => show win0_0.index t (1 : Fin 2) * 1024 + 1 * k.val = k.val; omega
  have hw : iblk m c 1 t (ix2 q k) = V m c main_arg3 (ix2 ((((cfg0.win 2).blk t).view.emb (ix2 p q)) 1) k) := by
    show V m c main_arg3 (((cfg0.win 1).blk t).view.emb (ix2 q k)) = _
    refine congrArg (V m c main_arg3) (funext fun a => Fin.ext ?_)
    match a with
    | ⟨0, _⟩ => show win0_1.index t (0 : Fin 2) * 512 + 1 * q.val = win0_2.index t (1 : Fin 2) * 512 + 1 * q.val; omega
    | ⟨1, _⟩ => show win0_1.index t (1 : Fin 2) * 1024 + 1 * k.val = k.val; omega
  rw [hx, hw]

/-- An index of the output array is in point `t`'s block iff each coordinate is in the block's range. -/
theorem mem_blk (t : Fin cfg0.N) (i : S30000x512.Idx) :
    i ∈ ((cfg0.win 2).blk t).view.set ↔ ∀ a : Fin 2, win0_2.index t a * S3000x512.size a ≤ (i a).val ∧ (i a).val < win0_2.index t a * S3000x512.size a + S3000x512.size a := by
  show i ∈ ((View.whole main_v0).slice (win0_2.rect t)).set ↔ _
  rw [View.set_slice_whole, Rect.mem_set_unit]
  exact Iff.rfl

/-- Row n lies in row block n / 3000, and that block is written back. -/
theorem covered (i : S30000x512.Idx) :
    ∃ t : Fin cfg0.N, (cfg0.win 2).flush t = true ∧ i ∈ ((cfg0.win 2).blk t).view.set := by
  have hi0 : (i 0).val < 30000 := (i 0).isLt
  have hi1 : (i 1).val < 512 := (i 1).isLt
  obtain ⟨t, ht⟩ := block_onto ⟨(i 0).val / 3000, by omega⟩
  have q0 : win0_2.index t (0 : Fin 2) = (i 0).val / 3000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 3000 ≤ (i 0).val ∧ (i 0).val < win0_2.index t (0 : Fin 2) * 3000 + 3000; omega
  | ⟨1, _⟩ => show win0_2.index t (1 : Fin 2) * 512 ≤ (i 1).val ∧ (i 1).val < win0_2.index t (1 : Fin 2) * 512 + 512; omega

/-- The output array after the region is the projection of the argument arrays. -/
theorem projected (c : Dev nD) :
    (dats m 0 c).arrAt 2 cfg0.N = proj (m ((c : Thread nD τ).loc main_arg0)) (m ((c : Thread nD τ).loc main_arg3)) :=
  (dats m 0 c).arrAt_eq_of_cover 2 (proj (V m c main_arg0) (V m c main_arg3)) (fun t _ => flushed_eq m c t) covered

end Cert.KernelIdeal.Projection

end
-- ==== Proof.IndexWrap.lean ====
/-
  Wrapping a possibly negative row index, and "all" of an array of ones.

  `take` reads a signed 32-bit index c into an axis of 30000 rows the numpy way: a negative c means
  row c + 30000.  If −30000 ≤ c < 30000 the wrapped index lies in 0 … 29999, so the test
  "0 ≤ index ∧ index ≤ 29999" that guards the gathered row is true.
  Separately: reducing an array of one-bit words by `and`, starting from 1, gives 1 when every word is 1.
-/
import Idealize.ShloMosaic.Lib.Affine
import Idealize.ShloMosaic.Lib.ReduceAll

namespace Cert.IndexWrap

open Idealize.ShloMosaic

/-- The row a signed index names in an axis of 30000 rows: c + 30000 when c is negative, else c. -/
def wrap (c : BitVec 32) : BitVec 32 := Scalar.select (IntOp.cmpi .slt c 0#32) (IntOp.addi c 30000#32) c

theorem toInt_lower : (4294937296#32 : BitVec 32).toInt = -30000 := by decide
theorem toInt_extent : (30000#32 : BitVec 32).toInt = 30000 := by decide
theorem toInt_last : (29999#32 : BitVec 32).toInt = 29999 := by decide
theorem toInt_zero : (0#32 : BitVec 32).toInt = 0 := by decide

/-- For −30000 ≤ c < 30000 the wrapped index is a row number, 0 … 29999. -/
theorem wrap_toInt (c : BitVec 32) (hlo : -30000 ≤ c.toInt) (hhi : c.toInt < 30000) :
    0 ≤ (wrap c).toInt ∧ (wrap c).toInt ≤ 29999 := by
  unfold wrap Scalar.select
  by_cases h : IntOp.cmpi .slt c 0#32 = 1
  · rw [if_pos h]
    have hneg : c.toInt < 0 := by
      have := IntOp.cmpi_slt.mp h
      rwa [toInt_zero] at this
    have hsum : (IntOp.addi c 30000#32).toInt = c.toInt + 30000 := by
      unfold IntOp.addi
      rw [BitVec.toInt_add, toInt_extent]
      exact Int.bmod_eq_of_le (by omega) (by omega)
    omega
  · rw [if_neg h]
    have hnn : ¬ c.toInt < 0 := fun hc => h (IntOp.cmpi_slt.mpr (by rw [toInt_zero]; exact hc))
    omega

/-- The guard of the gathered row, on the wrapped index, holds when the index was in −30000 … 29999. -/
theorem wrap_guard (c : BitVec 32) (hlo : IntOp.cmpi .sge c 4294937296#32 = 1#1) (hhi : IntOp.cmpi .slt c 30000#32 = 1#1) :
    IntOp.andi (IntOp.cmpi .sge (wrap c) 0#32) (IntOp.cmpi .sle (wrap c) 29999#32) = 1#1 := by
  have h1 := IntOp.cmpi_sge.mp hlo
  have h2 := IntOp.cmpi_slt.mp hhi
  rw [toInt_lower] at h1
  rw [toInt_extent] at h2
  obtain ⟨a, b⟩ := wrap_toInt c h1 h2
  exact IntOp.andi_eq_one.mpr ⟨IntOp.cmpi_sge.mpr (by rw [toInt_zero]; exact a), IntOp.cmpi_sle.mpr (by rw [toInt_last]; exact b)⟩

/-- A left fold by `and` from 1 over ones is 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi (1#1 : BitVec 1) 1#1 = 1#1 by decide]
    exact foldl_andi_ones f hf l

/-- "all" of an array of ones is 1, at every index of the result, whichever axes are reduced. -/
theorem reduce_andi_ones {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1) (j : t.Idx) :
    Host.reduce IntOp.andi x init h hu j = 1#1 := by
  rw [Host.reduce_eq_foldl, hi]
  exact foldl_andi_ones x hx _

end Cert.IndexWrap
-- ==== Proof.Neighbours.lean ====
/-
  Message passing after the projection: out[r] = Σ_{edges e with row(e) = r} adj[e] · h[col(e)].

  The two index rows of `edge_index` are `rows` (targets) and `cols` (sources).  `take` reads the source
  row numpy-style (a negative index c means row c + 30000), gathers that row of h, and replaces the
  gathered row by a fill value unless the wrapped index lies in 0 … 29999.  The messages are the
  gathered rows scaled by the edge weights, and they are summed into the target rows.

  When every source index lies in −30000 … 29999 the wrapped index is always a row number, so the
  guard is true on every edge and the guarded gather IS the gather.
-/
import proofs.«402446_j48189533061406_2_alg».proof.KernelIdeal
import proofs.«402446_j48189533061406_2_alg».proof.Proof.Gen.KernelIdeal
import proofs.«402446_j48189533061406_2_alg».proof.Proof.IndexWrap
import Idealize.ShloMosaic.Lib.ValueIdx
import Idealize.ShloMosaic.Lib.Pipeline.Value

noncomputable section

namespace Cert.KernelIdeal.Neighbours

open Cert.KernelIdeal Cert.KernelIdeal.Gen Idealize.ShloMosaic Idealize.ShloMosaic.ValueIdx Cert.IndexWrap

variable {F : FTy → Type} [FloatOps F]

/-- The edges' target nodes: row 0 of the edge list. -/
def rows (e : IVec S2x480000 32) : IVec S480000 32 :=
  shapeCast S480000 (extractStridedSlice S1x480000 ![0, 0] e slices_S2x480000_S1x480000_0_0) shapeCasts_S1x480000_S480000

/-- The edges' source nodes: row 1 of the edge list. -/
def cols (e : IVec S2x480000 32) : IVec S480000 32 :=
  shapeCast S480000 (extractStridedSlice S1x480000 ![1, 0] e slices_S2x480000_S1x480000_1_0) shapeCasts_S1x480000_S480000

/-- The source indices read numpy-style (negative ones wrapped), as the column of start indices of the gather. -/
def wrappedCols (e : IVec S2x480000 32) : IVec S480000x1 32 :=
  broadcastInDim S480000x1 ![0] bcast_S480000_S480000x1_0
    (select (cmpi .slt (cols e) (broadcastInDim S480000 ![] bcast_S_S480000 (constantI S_ 32 0#32)))
      (addi (cols e) (broadcastInDim S480000 ![] bcast_S_S480000 (constantI S_ 32 30000#32))) (cols e))

/-- Per edge: is the wrapped source index a row number, 0 ≤ index ≤ 29999? -/
def inRange (e : IVec S2x480000 32) : IVec S480000 1 :=
  Host.reduce IntOp.andi
    (andi (cmpi .sge (wrappedCols e) (broadcastInDim S480000x1 ![] bcast_S_S480000x1 (constantI S_ 32 0#32)))
      (cmpi .sle (wrappedCols e) (broadcastInDim S480000x1 ![0, 1] bcast_S1x1_S480000x1_0_1 (broadcastInDim S1x1 ![1] bcast_S1_S1x1_1 (constantI S1 32 29999#32)))))
    (constantI S_ 1 1#1) reducesTo_S480000x1_S480000_d1 h_S_

/-- The gathered source rows of `h`. -/
def gathered (h : FVec F S30000x512 .f32) (e : IVec S2x480000 32) : FVec F S480000x512 .f32 :=
  Host.gather gather_S30000x512_S480000x1_S480000x512_1_0_n_n_0_1_1512 h (wrappedCols e)

/-- `take`: the gathered rows, each replaced by the fill value where its index is out of range. -/
def taken (h : FVec F S30000x512 .f32) (e : IVec S2x480000 32) : FVec F S480000x512 .f32 :=
  select (broadcastInDim S480000x512 ![0] bcast_S480000_S480000x512_0 (inRange e)) (gathered h e)
    (broadcastInDim S480000x512 ![] bcast_S_S480000x512 (constant S_ .f32 0x7FC00000#32))

/-- The weighted messages `adj[e] · src[e, :]` summed into their target rows, from zero. -/
def aggregate (src : FVec F S480000x512 .f32) (e : IVec S2x480000 32) (a : FVec F S480000 .f32) : FVec F S30000x512 .f32 :=
  Host.scatterAdd scatter_S30000x512_S480000x1_S480000x512_1_0_0_1
    (broadcastInDim S30000x512 ![] bcast_S_S30000x512 (constant S_ .f32 0x00000000#32))
    (broadcastInDim S480000x1 ![0] bcast_S480000_S480000x1_0 (rows e))
    (mulf (broadcastInDim S480000x512 ![0, 1] bcast_S480000x1_S480000x512_0_1 (broadcastInDim S480000x1 ![0] bcast_S480000_S480000x1_0 a)) src)

/-- Every source index is in −30000 … 29999 (as two signed comparisons per edge). -/
def ColsInRange (e : IVec S2x480000 32) : Prop :=
  ∀ i : S480000.Idx, IntOp.cmpi .sge (cols e i) 4294937296#32 = 1#1 ∧ IntOp.cmpi .slt (cols e i) 30000#32 = 1#1

/-- The start index of edge `i` is its source index, wrapped. -/
theorem wrappedCols_apply (e : IVec S2x480000 32) (i : S480000x1.Idx) :
    wrappedCols e i = wrap (cols e (ix1 (⟨(i 0).val, (i 0).isLt⟩ : Fin 480000))) := by
  unfold wrappedCols
  refine (broadcastInDim_apply ![0] bcast_S480000_S480000x1_0 _ i (ix1 (⟨(i 0).val, (i 0).isLt⟩ : Fin 480000)) (fun a => match a with
    | ⟨0, _⟩ => by show (i 0).val = if (480000 : Nat) = 1 then 0 else (i 0).val; rw [if_neg (by decide)])).trans ?_
  rfl

/-- With the source indices in range, every edge passes the guard. -/
theorem inRange_one (e : IVec S2x480000 32) (hr : ColsInRange e) (k : S480000.Idx) : inRange e k = 1#1 := by
  unfold inRange
  refine reduce_andi_ones _ _ _ _ (fun i => ?_) rfl k
  show IntOp.andi (IntOp.cmpi .sge (wrappedCols e i) 0#32) (IntOp.cmpi .sle (wrappedCols e i) 29999#32) = 1#1
  rw [wrappedCols_apply]
  exact wrap_guard _ (hr _).1 (hr _).2

/-- With the source indices in range, `take` is the plain gather. -/
theorem taken_eq_gathered (h : FVec F S30000x512 .f32) (e : IVec S2x480000 32) (hr : ColsInRange e) : taken h e = gathered h e := by
  funext j
  unfold taken
  rw [select_apply]
  have hm : broadcastInDim S480000x512 ![0] bcast_S480000_S480000x512_0 (inRange e) j = 1#1 := by
    unfold broadcastInDim
    exact inRange_one e hr _
  rw [hm]
  exact if_pos rfl

end Cert.KernelIdeal.Neighbours

end
-- ==== Proof.KernelRun.lean ====
/-
  The whole kernel program, run: the region leaves the projection  h = x · Wᵀ  in its output array, and
  the host lines after it gather, scale and sum h's rows along the edges.  So the program ends with
      out = aggregate (take h cols) rows adj,      h = proj x W,
  and with its four arguments as they were.
-/
import proofs.«402446_j48189533061406_2_alg».proof.Proof.Gen.KernelIdeal.Frame
import proofs.«402446_j48189533061406_2_alg».proof.Proof.Projected
import proofs.«402446_j48189533061406_2_alg».proof.Proof.Neighbours
import Idealize.ShloMosaic.Lib.StableHlo.Run

set_option maxRecDepth 16384

noncomputable section

namespace Cert.KernelIdeal.Whole

open Cert.KernelIdeal Cert.KernelIdeal.Gen Cert.KernelIdeal.Projection Cert.KernelIdeal.Neighbours
open Idealize.ShloMosaic Idealize.ShloMosaic.TcCoe Idealize.SL.Sem Idealize.ShloMosaic.StableHlo

/-! ## The lines after the region, for any reading of the floats -/

section AnyFloats

variable {F : FTy → Type} [FloatOps F] (m : (ℓ : Loc nD τ sig) → Buf (Elt F) ℓ)

/-- The core's buffer contents when the region is left: its three arrays as the region leaves them, every other
    buffer as launched. -/
abbrev atExit (c : Dev nD) : Valuation τ sig (Elt F) :=
  Pipeline.withArrays (cfgs 0).spec c (V0 m c) fun w => (dats m 0 c).arrAt w (cfgs 0).N

set_option maxHeartbeats 4000000 in
/-- The host lines after the region compute the aggregation of the taken rows of the region's output. -/
theorem tail_term (c : Dev nD) :
    Pipeline.afterTail₀ cfgs (dats m) 0 (V0 m) [hostOps1, hostOps1_1, hostOps1_2] c main_v11
      = aggregate (F := F) (taken (F := F) (atExit m c (Proc.devRef .tc main_v0)) (atExit m c (Proc.devRef .tc main_arg1)))
          (atExit m c (Proc.devRef .tc main_arg1)) (atExit m c (Proc.devRef .tc main_arg2)) := by
  unfold Pipeline.afterTail₀
  show StableHlo.after (List.flatten [hostOps1, hostOps1_1, hostOps1_2]) _ (Proc.devRef .tc main_v11) = _
  simp only [hostOps1, hostOps1_1, hostOps1_2, List.flatten_cons, List.flatten_nil, List.append_nil, List.cons_append, List.nil_append]
  after_results
  simp only [TRef.ofBuf, TRef.toBuf, cast_eq]
  rfl

/-- The edge list is no array of the region: it is as launched. -/
theorem exit_edges (c : Dev nD) : atExit m c (Proc.devRef .tc main_arg1) = m ((c : Thread nD τ).loc main_arg1) :=
  (Pipeline.withArrays_of_ne _ c (V0 m c) _ main_arg1 (by exact (by decide : ∀ w, Pipeline.arrRef spec0 w ≠ main_arg1))).trans (V_main_arg1 m c)

/-- Neither are the edge weights. -/
theorem exit_weights (c : Dev nD) : atExit m c (Proc.devRef .tc main_arg2) = m ((c : Thread nD τ).loc main_arg2) :=
  (Pipeline.withArrays_of_ne _ c (V0 m c) _ main_arg2 (by exact (by decide : ∀ w, Pipeline.arrRef spec0 w ≠ main_arg2))).trans (V_main_arg2 m c)

end AnyFloats

/-! ## Over the extended reals -/

variable (m : (ℓ : Loc nD τ sig) → Buf (Elt Ideal) ℓ) (ρ : Dev nD → PrngReg)

/-- The region's output array is the projection of the arguments. -/
theorem exit_projected (c : Dev nD) :
    atExit m c (Proc.devRef .tc main_v0) = proj (m ((c : Thread nD τ).loc main_arg0)) (m ((c : Thread nD τ).loc main_arg3)) :=
  (Pipeline.withArrays_arr spec0 launch0.win.arr_inj c _ _ 2).trans (projected m c)

/-- Every weakly fair execution terminates with the result at the aggregation over the taken rows of the projection,
    and the arguments unchanged. -/
theorem run : θ_run defs (onTc (τ := τ) (main (F := Ideal))) ⟨m, fun _ => 0, ρ⟩ fun r => ∀ c : Dev nD,
      r.2.mem ((c : Thread nD τ).loc main_v11)
        = aggregate (F := Ideal) (taken (F := Ideal) (proj (m ((c : Thread nD τ).loc main_arg0)) (m ((c : Thread nD τ).loc main_arg3))) (m ((c : Thread nD τ).loc main_arg1)))
            (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c =>
    ⟨((h c).2 main_v11 (Pipeline.mem_restRefs_of main_v11 (by decide) (by decide))).trans
        ((tail_term m c).trans (by rw [exit_projected, exit_edges, exit_weights])),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 1).trans (((dats m 0 c).arrAt_in 1 rfl _).trans ((A_eq m c 1).trans (V_main_arg3 m c)))⟩)
    (run_main m ρ)

end Cert.KernelIdeal.Whole

end
-- ==== Proof.ColumnRange.lean ====
/-
  The precondition's last conjunct, read back: every source index of the edge list lies in
  −30000 … 29999 — the indices numpy-style indexing accepts for an axis of 30000 rows.

  The precondition is a conjunction of four "all" tests whose result is 1; the last one is the
  "all" over the edges of  (col ≥ −30000) and (col < 30000).  An "all" that is 1 had a 1 at every
  edge, and an `and` that is 1 has both sides 1.
-/
import proofs.«402446_j48189533061406_2_alg».proof.Pre_finite_inputs
import proofs.«402446_j48189533061406_2_alg».proof.Proof.Neighbours
import Idealize.ShloMosaic.Lib.ReduceAll
import Idealize.ShloMosaic.PureOps.Ideal

noncomputable section

namespace Cert.KernelIdeal.Neighbours

open Idealize.ShloMosaic

variable [Cert.Pre_finite_inputs.Facts]

instance scalarIdx_subsingleton : Subsingleton Cert.Pre_finite_inputs.S_.Idx := ⟨fun a b => funext fun d => d.elim0⟩

/-- Under the precondition every source index is in −30000 … 29999. -/
theorem colsInRange_of_pre (x0 : FVec Ideal Cert.Pre_finite_inputs.S30000x1024 .f32) (e : IVec Cert.Pre_finite_inputs.S2x480000 32)
    (x2 : FVec Ideal Cert.Pre_finite_inputs.S480000 .f32) (x3 : FVec Ideal Cert.Pre_finite_inputs.S512x1024 .f32)
    (h : Cert.Pre_finite_inputs.fn (F := Ideal) x0 e x2 x3 = fun _ => 1#1) : ColsInRange e := by
  intro i
  have h0 := congrFun h ValueIdx.ix0
  dsimp only [Cert.Pre_finite_inputs.fn, Cert.Pre_finite_inputs.fn_part1] at h0
  obtain ⟨_, h1⟩ := IntOp.andi_eq_one.mp h0
  have h2 := Host.reduce_andi_all _ _ _ _ _ h1 i
  exact IntOp.andi_eq_one.mp h2

end Cert.KernelIdeal.Neighbours

end
-- ==== Proof.Bridge.lean ====
/-
  The reference computes the same array.

  Its first line is the whole product  h[n, o] = Σ_k x[n, k] · W[o, k]  (one `dot_general` contracting the
  feature axes), which is the projection the kernel's region leaves block by block.  Its remaining lines are
  the kernel's lines after the region — the same numpy-style wrap of the source indices, the same gather,
  the same scaling by the edge weights, the same sum into the target rows — except that it gathers without a
  range guard.  With every source index in −30000 … 29999 the kernel's guard is true on every edge, so the
  two results are one term.
-/
import proofs.«402446_j48189533061406_2_alg».proof.Proof.Gen.ReferenceIdeal.Read
import proofs.«402446_j48189533061406_2_alg».proof.Proof.Projected
import proofs.«402446_j48189533061406_2_alg».proof.Proof.Neighbours

noncomputable section

namespace Cert.ReferenceIdeal.RefValue

open Idealize.ShloMosaic Idealize.ShloMosaic.ValueIdx
open Cert.KernelIdeal.Projection Cert.KernelIdeal.Neighbours

/-- The reference's product, entry by entry, is the projection. -/
theorem dot_eq_proj (x : FVec Ideal Cert.ReferenceIdeal.S30000x1024 .f32) (w : FVec Ideal Cert.ReferenceIdeal.S512x1024 .f32) :
    Cert.ReferenceIdeal.Read.val_main_v0 (F := Ideal) x w = proj x w := by
  funext i
  rw [Cert.ReferenceIdeal.Read.val_main_v0_apply]
  unfold proj
  refine Finset.sum_congr rfl fun k _ => ?_
  have el : Cert.ReferenceIdeal.Read.lidx_main_v0 i k = ix2 (i 0) k := funext fun a => Fin.ext (by
    match a with
    | ⟨0, _⟩ => rfl
    | ⟨1, _⟩ => rfl)
  have er : Cert.ReferenceIdeal.Read.ridx_main_v0 i k = ix2 (i 1) k := funext fun a => Fin.ext (by
    match a with
    | ⟨0, _⟩ => rfl
    | ⟨1, _⟩ => rfl)
  rw [el, er]
  rfl

/-- With the source indices in range, the reference's result is the kernel's: the aggregation over the taken rows of
    the projection. -/
theorem result_eq (x0 : FVec Ideal Cert.ReferenceIdeal.S30000x1024 .f32) (x1 : IVec Cert.ReferenceIdeal.S2x480000 32)
    (x2 : FVec Ideal Cert.ReferenceIdeal.S480000 .f32) (x3 : FVec Ideal Cert.ReferenceIdeal.S512x1024 .f32) (hr : ColsInRange x1) :
    Cert.ReferenceIdeal.Read.val_main_v17 (F := Ideal) x0 x1 x2 x3 = aggregate (taken (proj x0 x3) x1) x1 x2 := by
  rw [taken_eq_gathered _ _ hr, ← dot_eq_proj]
  rfl

end Cert.ReferenceIdeal.RefValue

end
-- ==== Proof.lean ====
/-
  A graph-convolution layer: project every node's features, then sum the projected features of each node's
  in-neighbours, weighted by the edge weights,
      out[r, :] = Σ_{edges e, row(e) = r} adj[e] · h[col(e), :],      h = x · Wᵀ.

  The kernel computes h in ten row blocks of 3000 nodes (each block a product of a block of `x` with the
  transposed weights, its inputs passed through a narrower float format first — the identity over the extended
  reals); the reference computes h as one product.  Entry by entry both are Σ_k x[n, k] · W[o, k], and the
  blocks tile the rows (Projected.lean, Bridge.lean).  Both programs then wrap negative source indices the numpy
  way, gather, scale and sum along the edges with the same operations; the kernel additionally replaces a
  gathered row by a fill value when its wrapped index is not a row number.  Under the precondition every
  source index lies in −30000 … 29999 (ColumnRange.lean), the wrapped index is then always a row number
  (IndexWrap.lean), the replacement never happens (Neighbours.lean), and the two results are one term.
  No law of arithmetic beyond reindexing a finite sum is used, so finiteness of the float inputs is not needed.
-/
import proofs.«402446_j48189533061406_2_alg».proof.Defs
import proofs.«402446_j48189533061406_2_alg».proof.Proof.Gen.Kernel
import proofs.«402446_j48189533061406_2_alg».proof.Proof.Gen.Kernel.Skeleton
import proofs.«402446_j48189533061406_2_alg».proof.Proof.Gen.Kernel.Launch
import proofs.«402446_j48189533061406_2_alg».proof.Proof.Gen.Kernel.Points
import proofs.«402446_j48189533061406_2_alg».proof.Proof.Gen.Kernel.Frame
import proofs.«402446_j48189533061406_2_alg».proof.Proof.Gen.KernelIdeal
import proofs.«402446_j48189533061406_2_alg».proof.Proof.Gen.KernelIdeal.Skeleton
import proofs.«402446_j48189533061406_2_alg».proof.Proof.Gen.KernelIdeal.Launch
import proofs.«402446_j48189533061406_2_alg».proof.Proof.Gen.KernelIdeal.Points
import proofs.«402446_j48189533061406_2_alg».proof.Proof.Gen.KernelIdeal.Frame
import proofs.«402446_j48189533061406_2_alg».proof.Proof.Gen.ReferenceIdeal
import proofs.«402446_j48189533061406_2_alg».proof.Proof.Gen.ReferenceIdeal.Run
import proofs.«402446_j48189533061406_2_alg».proof.Proof.Gen.ReferenceIdeal.Read
import proofs.«402446_j48189533061406_2_alg».proof.Proof.Gen.Pre_finite_inputs
import proofs.«402446_j48189533061406_2_alg».proof.Proof.KernelRun
import proofs.«402446_j48189533061406_2_alg».proof.Proof.ColumnRange
import proofs.«402446_j48189533061406_2_alg».proof.Proof.Bridge
import Idealize.ShloMosaic.Adequacy
import Idealize.ShloMosaic.Init

noncomputable section

namespace Cert.Proof

open Idealize.ShloMosaic Idealize.SL.Sem

/-- The word-level kernel runs and keeps its arguments. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference is host lines only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From arguments that agree, with the source indices in range, both programs end at the aggregation over the taken
    rows of the projection. -/
theorem algebraic : Cert.algebraic_KernelIdeal_ReferenceIdeal := by
  intro m ρ m' ρ' hpre hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2, Cert.ReferenceIdeal.Read.val_main_v17_eq]
  exact Cert.ReferenceIdeal.RefValue.result_eq _ _ _ _ (Cert.KernelIdeal.Neighbours.colsInRange_of_pre _ _ _ _ (hpre c))

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
